-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x128x256 : Shape := ⟨4, ![32, 64, 128, 256]⟩
abbrev S32x64 : Shape := ⟨2, ![32, 64]⟩
abbrev S_ : Shape := ⟨0, ![]⟩

class Facts : Prop where
  bcast_S_S32x64x128x256 : S_.BroadcastsInDim S32x64x128x256 (![] : Fin 0 → Fin S32x64x128x256.rank)
  reducesTo_S32x64x128x256_S_d0_1_2_3 : S32x64x128x256.ReducesTo [0, 1, 2, 3] S_
  h_S_ : 0 < S_.numel

variable [Facts]

def fn {F : FTy → Type} [FloatOps F] (main_arg0 : FVec F S32x64x128x256 .f32) (main_arg1 : IVec S32x64 32) : IVec S_ 1 :=
  let main_v0 : FVec F S32x64x128x256 .f32 := Host.absf main_arg0
  let main_cst : FVec F S_ .f32 := constant S_ .f32 0x7F800000#32
  let main_v1 : FVec F S32x64x128x256 .f32 := broadcastInDim S32x64x128x256 ![] bcast_S_S32x64x128x256 main_cst
  let main_v2 : IVec S32x64x128x256 1 := cmpf .olt main_v0 main_v1
  let main_c : IVec S_ 1 := constantI S_ 1 1#1
  let main_v3 : IVec S_ 1 := (fun x v => Host.reduce IntOp.andi x v reducesTo_S32x64x128x256_S_d0_1_2_3 h_S_) main_v2 main_c
  main_v3
-- ==== Kernel.lean ====
abbrev S32x64x128x256 : Shape := ⟨4, ![32, 64, 128, 256]⟩
abbrev S32x64 : Shape := ⟨2, ![32, 64]⟩
abbrev S2048x128x256 : Shape := ⟨3, ![2048, 128, 256]⟩
abbrev S2048 : Shape := ⟨1, ![2048]⟩
abbrev S2048x128 : Shape := ⟨2, ![2048, 128]⟩
abbrev S2048x1 : Shape := ⟨2, ![2048, 1]⟩
abbrev S_ : Shape := ⟨0, ![]⟩
abbrev S64x128x256 : Shape := ⟨3, ![64, 128, 256]⟩
abbrev S64x128 : Shape := ⟨2, ![64, 128]⟩
abbrev S64x128x1 : Shape := ⟨3, ![64, 128, 1]⟩

abbrev nBuf : Space → Nat
  | .hbm => 16
  | .vmem => 6
  | .smem => 0
  | _ => 0

abbrev bufTy : (tb : Table) → Fin (tcTables nBuf tb) → BufTy
  | .hbm, ⟨0, _⟩ => ⟨S32x64x128x256, .f32⟩
  | .hbm, ⟨1, _⟩ => ⟨S32x64, .i32⟩
  | .hbm, ⟨2, _⟩ => ⟨S2048x128x256, .f32⟩
  | .hbm, ⟨3, _⟩ => ⟨S2048, .i32⟩
  | .hbm, ⟨4, _⟩ => ⟨S2048x128, .i32⟩
  | .hbm, ⟨5, _⟩ => ⟨S2048x1, .i32⟩
  | .hbm, ⟨6, _⟩ => ⟨S2048x128, .i32⟩
  | .hbm, ⟨7, _⟩ => ⟨S2048x128, .i1⟩
  | .hbm, ⟨8, _⟩ => ⟨S_, .f32⟩
  | .hbm, ⟨9, _⟩ => ⟨S_, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S2048x128, .f32⟩
  | .hbm, ⟨14, _⟩ => ⟨S2048x128x256, .f32⟩
  | .hbm, ⟨15, _⟩ => ⟨S32x64x128x256, .f32⟩
  | .local _ .vmem, ⟨0, _⟩ => ⟨S64x128x256, .f32⟩
  | .local _ .vmem, ⟨1, _⟩ => ⟨S64x128x256, .f32⟩
  | .local _ .vmem, ⟨2, _⟩ => ⟨S64x128, .f32⟩
  | .local _ .vmem, ⟨3, _⟩ => ⟨S64x128, .f32⟩
  | .local _ .vmem, ⟨4, _⟩ => ⟨S64x128x256, .f32⟩
  | .local _ .vmem, ⟨5, _⟩ => ⟨S64x128x256, .f32⟩
  | _, _ => ⟨S32x64x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x64x128x256_S2048x128x256 : S32x64x128x256.ShapeCasts S2048x128x256
  shapeCasts_S32x64_S2048 : S32x64.ShapeCasts S2048
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S_S2048x128 : S_.BroadcastsInDim S2048x128 (![] : Fin 0 → Fin S2048x128.rank)
  inb_S64x128x256_S64x128x256_0_0_0 : ∀ a, (![0, 0, 0] : Fin 3 → Nat) a + S64x128x256.size a ≤ S64x128x256.size a
  h_S64x128x256 : 0 < S64x128x256.numel
  shapeCasts_S64x128x256_S64x128x256 : S64x128x256.ShapeCasts S64x128x256
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S64x128x1 : S64x128.ShapeCasts S64x128x1
  broadcasts_S64x128x1_S64x128x256 : S64x128x1.Broadcasts S64x128x256
  shapeCasts_S2048x128x256_S32x64x128x256 : S2048x128x256.ShapeCasts S32x64x128x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x256.size a ≤ S2048x128x256.size a
  hwx0_0 : ∀ i : grid0.Coords, EltTy.bits .f32 = 32 ∨ (Rect.block (s := S2048x128x256) S64x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S2048x128.size a
  hwx0_1 : ∀ i : grid0.Coords, EltTy.bits .f32 = 32 ∨ (Rect.block (s := S2048x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128x256.size a ≤ S2048x128x256.size a
  hwx0_2 : ∀ i : grid0.Coords, EltTy.bits .f32 = 32 ∨ (Rect.block (s := S2048x128x256) S64x128x256.size (cc0_transform_2 i) (hinb0_2 i)).WholeWords (EltTy.packing .f32)

variable [Facts₀]

abbrev win0_0 : Pipeline.Window sig grid0 :=
  Pipeline.Window.ofSpec (Memref.whole main_v0) S64x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x64x128x256 : Shape := ⟨4, ![32, 64, 128, 256]⟩
abbrev S32x64 : Shape := ⟨2, ![32, 64]⟩
abbrev S128 : Shape := ⟨1, ![128]⟩
abbrev S1x1x128 : Shape := ⟨3, ![1, 1, 128]⟩
abbrev S32x64x1 : Shape := ⟨3, ![32, 64, 1]⟩
abbrev S32x64x128 : Shape := ⟨3, ![32, 64, 128]⟩
abbrev S32x64x128x1 : Shape := ⟨4, ![32, 64, 128, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S32x64x128x256, .f32⟩
  | .hbm, ⟨1, _⟩ => ⟨S32x64, .i32⟩
  | .hbm, ⟨2, _⟩ => ⟨S128, .i32⟩
  | .hbm, ⟨3, _⟩ => ⟨S1x1x128, .i32⟩
  | .hbm, ⟨4, _⟩ => ⟨S32x64x1, .i32⟩
  | .hbm, ⟨5, _⟩ => ⟨S32x64x128, .i32⟩
  | .hbm, ⟨6, _⟩ => ⟨S32x64x128, .i32⟩
  | .hbm, ⟨7, _⟩ => ⟨S32x64x128, .i1⟩
  | .hbm, ⟨8, _⟩ => ⟨S32x64x128x1, .i1⟩
  | .hbm, ⟨9, _⟩ => ⟨S32x64x128x1, .f32⟩
  | .hbm, ⟨10, _⟩ => ⟨S_, .f32⟩
  | .hbm, ⟨11, _⟩ => ⟨S32x64x128x1, .f32⟩
  | .hbm, ⟨12, _⟩ => ⟨S32x64x128x1, .f32⟩
  | .hbm, ⟨13, _⟩ => ⟨S32x64x128x256, .f32⟩
  | .hbm, ⟨14, _⟩ => ⟨S32x64x128x256, .f32⟩
  | _, _ => ⟨S32x64x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S32x64_S32x64x1_0_1 : S32x64.BroadcastsInDim S32x64x1 (![0, 1] : Fin 2 → Fin S32x64x1.rank)
  bcast_S1x1x128_S32x64x128_0_1_2 : S1x1x128.BroadcastsInDim S32x64x128 (![0, 1, 2] : Fin 3 → Fin S32x64x128.rank)
  bcast_S32x64x1_S32x64x128_0_1_2 : S32x64x1.BroadcastsInDim S32x64x128 (![0, 1, 2] : Fin 3 → Fin S32x64x128.rank)
  bcast_S32x64x128_S32x64x128x1_0_1_2 : S32x64x128.BroadcastsInDim S32x64x128x1 (![0, 1, 2] : Fin 3 → Fin S32x64x128x1.rank)
  bcast_S_S32x64x128x1 : S_.BroadcastsInDim S32x64x128x1 (![] : Fin 0 → Fin S32x64x128x1.rank)
  bcast_S32x64x128x1_S32x64x128x256_0_1_2_3 : S32x64x128x1.BroadcastsInDim S32x64x128x256 (![0, 1, 2, 3] : Fin 4 → Fin S32x64x128x256.rank)

variable [Facts₀]

class Facts : Prop extends Facts₀ where

variable [Facts]
-- ==== Proof.MaskScale.lean ====
/-
  The function both programs compute, index by index, on the extended reals.

  The input is x : [32, 64, 128, 256] reals and len : [32, 64] 32-bit words. Row n of the set (b, t) is KEPT when
  n < len (b, t) as signed words; a kept row is scaled by the constant c (the binary32 pattern 0x3F8CCCCD read as its exact
  value), a dropped row is multiplied by 0:

      out (b, t, n, f) = x (b, t, n, f) · (if n <ₛ len (b, t) then c else 0).

  One side forms the factor by a select between c and 0; the other converts the comparison's bit to the real 1 or 0 and
  multiplies it by c. The two factors are equal because 1 · c = c and 0 · c = 0 hold for EVERY extended real c (the extended
  reals are a monoid with zero under multiplication), so no finiteness is used.
-/
import Idealize.ShloMosaic.PureOps.Ideal
import Idealize.ShloMosaic.PureOps.Ideal.Laws
import Idealize.ShloMosaic.Lib.ValueIdx

noncomputable section

namespace Cert.MaskScale

open Idealize.ShloMosaic Idealize.ShloMosaic.ValueIdx

/-- The input's shape, [32, 64, 128, 256]. -/
abbrev SX : Shape := ⟨4, ![32, 64, 128, 256]⟩
/-- The lengths' shape, [32, 64]. -/
abbrev SL : Shape := ⟨2, ![32, 64]⟩

/-- The scale of a kept row: the binary32 pattern 0x3F8CCCCD as its exact value. -/
def scale : EReal := Ideal.ofBits .f32 0x3F8CCCCD#32

/-- The bit that says row `n` is kept under the length word `ℓ`: `n <ₛ ℓ` on 32-bit words. -/
def keepBit (n : Nat) (ℓ : BitVec 32) : BitVec 1 := IntOp.cmpi .slt (BitVec.ofNat 32 n) ℓ

/-- The factor a row is multiplied by: the scale if kept, zero if not. -/
def factor (n : Nat) (ℓ : BitVec 32) : EReal := Scalar.select (keepBit n ℓ) scale 0

/-- The result, index by index: each entry times its row's factor. -/
def scaled (x : SX.Idx → EReal) (len : SL.Idx → BitVec 32) : SX.Idx → EReal :=
  fun i => x i * factor (i 2).val (len (ix2 (i 0) (i 1)))

/-- A bit converted to a real (1 or 0) times `c` is the select between `c` and `0` on that bit: `1 · c = c`,
    `0 · c = 0`, for every extended real `c`. -/
theorem bit_mul (b : BitVec 1) (c : EReal) : ((b.toNat : ℝ) : EReal) * c = Scalar.select b c 0 := by
  by_cases h : b = 1#1
  · subst h
    rw [select_one]
    simp
  · have h0 : b = 0#1 := eq_zero_of_ne_one h
    subst h0
    rw [select_zero]
    simp

end Cert.MaskScale

end
-- ==== Proof.RefValue.lean ====
/-
  The reference's result is the row-scaled input.

  The reference compares an iota along the row axis, broadcast over (b, t), with the lengths broadcast along the row axis;
  converts the comparison's bit to a real; multiplies it by the scale; broadcasts that factor along the feature axis; and
  multiplies the input by it. Read at an index (b, t, n, f) every broadcast just drops or repeats a coordinate, so the factor
  is (bit of n <ₛ len (b, t)) · c, which is the select between c and 0 (MaskScale.bit_mul).
-/
import proofs.«104111_j18098992185823_1_alg».proof.Proof.Gen.ReferenceIdeal.Read
import proofs.«104111_j18098992185823_1_alg».proof.Proof.MaskScale

noncomputable section

namespace Cert.ReferenceIdeal.RefValue

open Cert.ReferenceIdeal Cert.ReferenceIdeal.Gen Cert.ReferenceIdeal.Read Idealize.ShloMosaic Idealize.ShloMosaic.ValueIdx
open Cert.MaskScale

/-- The chain of broadcasts between the lengths and the compared array keeps the coordinates (b, t). -/
theorem len_index (i : S32x64x128x256.Idx) :
    idx_main_v2 (idx_main_v4 (idx_main_v6 (idx_main_v10 i))) = ix2 (i 0) (i 1) :=
  funext fun a => Fin.ext (by match a with | ⟨0, _⟩ => rfl | ⟨1, _⟩ => rfl)

/-- The chain of broadcasts between the iota and the compared array keeps the row coordinate n. -/
theorem row_index (i : S32x64x128x256.Idx) :
    (idx_main_v1 (idx_main_v3 (idx_main_v6 (idx_main_v10 i))) 0).val = (i 2).val := rfl

/-- The reference's last stage, at the extended reals, is `scaled` of the two arguments. -/
theorem stage_eq (x : (⟨S32x64x128x256, .f32⟩ : BufTy).Contents (Elt Ideal)) (len : (⟨S32x64, .i32⟩ : BufTy).Contents (Elt Ideal)) :
    val_main_v11 (F := Ideal) x len = scaled x len := by
  funext i
  rw [val_main_v11_apply, val_main_v10_apply, val_main_v9_apply, val_main_v7_apply, val_main_v8_apply, val_main_cst_apply,
    val_main_v6_apply, val_main_v5_apply, val_main_v3_apply, val_main_v1_apply, val_main_v0_apply, val_main_v4_apply,
    val_main_v2_apply, len_index, row_index]
  show x i * ((((IntOp.cmpi .slt (BitVec.ofNat 32 (i 2).val) (len (ix2 (i 0) (i 1)))).toNat : ℝ) : EReal) * Ideal.ofBits .f32 0x3F8CCCCD#32) = _
  rw [bit_mul]
  rfl

end Cert.ReferenceIdeal.RefValue

end
-- ==== Proof.RowBlocks.lean ====
/-
  What the region leaves in its output array, as ONE function of the two arrays it reads.

  The region walks 32 grid points. At point t it reads rows 64·t … 64·t + 63 of the data array x : [2048, 128, 256] and of the
  factor array s : [2048, 128], and writes the same rows of the output. Inside a block the body multiplies each entry of
  the data block by the factor of its (row, column): the factor block [64, 128] is viewed as [64, 128, 1] and repeated
  along the last axis. So block t of the output is block t of

      rowScaled x s (r, n, f) = x (r, n, f) · s (r, n),

  and the 32 blocks tile the output array (the block that holds row r is r / 64), hence the array ends at `rowScaled x s`.
-/
import proofs.«104111_j18098992185823_1_alg».proof.Proof.Gen.KernelIdeal.Frame
import Idealize.ShloMosaic.Lib.Pipeline.Value
import Idealize.ShloMosaic.Lib.ValueIdx

noncomputable section

namespace Cert.KernelIdeal.RowBlocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-! ## Inside one block -/

/-- The body's product at an index of the block: the data entry times the factor of its (row, column). The factor's
    two shape casts and its broadcast only repeat it along the last axis. -/
theorem product_apply (x0 : Vec F S64x128x256 .f32) (x1 : Vec F S64x128 .f32) (y : S64x128x256.Idx) :
    k0_pay1 x0 x1 y = FloatOps.mulf (x0 y) (x1 (ix2 (y 0) (y 1))) := by
  unfold k0_pay1
  show FloatOps.mulf (shapeCast S64x128x256 x0 shapeCasts_S64x128x256_S64x128x256 y)
      (broadcastTo S64x128x256 (shapeCast S64x128x1 (shapeCast S64x128 x1 shapeCasts_S64x128_S64x128) shapeCasts_S64x128_S64x128x1)
        broadcasts_S64x128x1_S64x128x256 y) = _
  rw [shapeCast_self, shapeCast_self,
    broadcastTo_apply _ broadcasts_S64x128x1_S64x128x256 y (ix3 (y 0) (y 1) (0 : Fin 1)) (fun a => match a with
      | ⟨0, _⟩ => by show (y 0).val = if (64 : Nat) = 1 then 0 else (y 0).val; rw [if_neg (by decide)]
      | ⟨1, _⟩ => by show (y 1).val = if (128 : Nat) = 1 then 0 else (y 1).val; rw [if_neg (by decide)]
      | ⟨2, _⟩ => by show 0 = if (1 : Nat) = 1 then 0 else (y 2).val; rw [if_pos rfl]),
    shapeCast_apply _ shapeCasts_S64x128_S64x128x1 (ix3 (y 0) (y 1) (0 : Fin 1)) (ix2 (y 0) (y 1)) (by
      rw [Shape.rowMajor_val_two, Shape.rowMajor_val_three]
      show (y 0).val * 128 + (y 1).val = ((y 0).val * 128 + (y 1).val) * 1 + 0
      omega)]

/-! ## From blocks to the array -/

variable (m : (ℓ : Loc nD τ sig) → Buf (Elt F) ℓ)

/-- The output array's contents: each data entry times the factor of its (row, column). -/
def rowScaled (x : S2048x128x256.Idx → Elt F .f32) (s : S2048x128.Idx → Elt F .f32) : S2048x128x256.Idx → Elt F .f32 :=
  fun j => FloatOps.mulf (x j) (s (ix2 (j 0) (j 1)))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The three index maps over the grid: at point t every window is at block row t, block column 0 (and the
    rank-3 windows at block 0 of the last axis). -/
theorem block_rows : ∀ t : Fin cfg0.N,
    win0_0.index t (0 : Fin 3) = win0_2.index t (0 : Fin 3)
    ∧ win0_0.index t (1 : Fin 3) = 0 ∧ win0_0.index t (2 : Fin 3) = 0
    ∧ win0_1.index t (0 : Fin 2) = win0_2.index t (0 : Fin 3)
    ∧ win0_1.index t (1 : Fin 2) = 0
    ∧ win0_2.index t (1 : Fin 3) = 0 ∧ win0_2.index t (2 : Fin 3) = 0 :=
  (by decide +kernel : ∀ t : Fin grid0.N, _)

/-- Every block row of the output is some point's. -/
theorem point_of_block_row : ∀ q : Fin 32, ∃ t : Fin cfg0.N, win0_2.index t = ![q.val, 0, 0] :=
  (by decide +kernel : ∀ q : Fin 32, ∃ t : Fin grid0.N, win0_2.index t = ![q.val, 0, 0])

/-- What point t writes back is block t of `rowScaled` of the two arrays as the region finds them. -/
theorem written_block (c : Dev nD) (t : Fin cfg0.N) :
    (dats m 0 c).flushed 2 t
      = ((cfg0.win 2).blk t).view.read (Elt F) (rowScaled (V m c main_v0) (V m c main_v7)) := by
  show (cfg0.win 2).cut (grid0.coords t) ((dats m 0 c).after 2 t) = _
  rw [after0_2]
  unfold out0_2
  rw [View.canon_unit_zero zeros3]
  simp only [View.ld_unit_zero (S := S64x128x256) zeros3, View.ld_unit_zero (S := S64x128) zeros2]
  obtain ⟨e0, e1, e2, e3, e4, e5, e6⟩ := block_rows t
  funext y
  show k0_pay1 (iblk m c 0 t) (iblk m c 1 t) y = rowScaled (V m c main_v0) (V m c main_v7) (((cfg0.win 2).blk t).view.emb y)
  refine (product_apply (iblk m c 0 t) (iblk m c 1 t) y).trans ?_
  show FloatOps.mulf (V m c main_v0 (((cfg0.win 0).blk t).view.emb y)) (V m c main_v7 (((cfg0.win 1).blk t).view.emb (ix2 (y 0) (y 1))))
    = FloatOps.mulf (V m c main_v0 (((cfg0.win 2).blk t).view.emb y))
        (V m c main_v7 (ix2 ((((cfg0.win 2).blk t).view.emb y) 0) ((((cfg0.win 2).blk t).view.emb y) 1)))
  have h0 : ((cfg0.win 0).blk t).view.emb y = ((cfg0.win 2).blk t).view.emb y := by
    funext a; apply Fin.ext
    match a with
    | ⟨0, _⟩ => show win0_0.index t (0 : Fin 3) * 64 + 1 * (y 0).val = win0_2.index t (0 : Fin 3) * 64 + 1 * (y 0).val; omega
    | ⟨1, _⟩ => show win0_0.index t (1 : Fin 3) * 128 + 1 * (y 1).val = win0_2.index t (1 : Fin 3) * 128 + 1 * (y 1).val; omega
    | ⟨2, _⟩ => show win0_0.index t (2 : Fin 3) * 256 + 1 * (y 2).val = win0_2.index t (2 : Fin 3) * 256 + 1 * (y 2).val; omega
  have h1 : ((cfg0.win 1).blk t).view.emb (ix2 (y 0) (y 1))
      = ix2 ((((cfg0.win 2).blk t).view.emb y) 0) ((((cfg0.win 2).blk t).view.emb y) 1) := by
    funext a; apply Fin.ext
    match a with
    | ⟨0, _⟩ => show win0_1.index t (0 : Fin 2) * 64 + 1 * (y 0).val = win0_2.index t (0 : Fin 3) * 64 + 1 * (y 0).val; omega
    | ⟨1, _⟩ => show win0_1.index t (1 : Fin 2) * 128 + 1 * (y 1).val = win0_2.index t (1 : Fin 3) * 128 + 1 * (y 1).val; omega
  rw [h0, h1]
  rfl

/-- An index of the output array is in point t's block iff each coordinate is in the block's range on its axis. -/
theorem mem_block (t : Fin cfg0.N) (i : S2048x128x256.Idx) :
    i ∈ ((cfg0.win 2).blk t).view.set ↔ ∀ a : Fin 3, win0_2.index t a * S64x128x256.size a ≤ (i a).val
      ∧ (i a).val < win0_2.index t a * S64x128x256.size a + S64x128x256.size a := by
  show i ∈ ((View.whole main_v8).slice (win0_2.rect t)).set ↔ _
  rw [View.set_slice_whole, Rect.mem_set_unit]
  exact Iff.rfl

/-- The blocks tile the output array: row r lies in the block of the point at block row r / 64. -/
theorem tiled (i : S2048x128x256.Idx) :
    ∃ t : Fin cfg0.N, (cfg0.win 2).flush t = true ∧ i ∈ ((cfg0.win 2).blk t).view.set := by
  have hi0 : (i 0).val < 2048 := (i 0).isLt
  have hi1 : (i 1).val < 128 := (i 1).isLt
  have hi2 : (i 2).val < 256 := (i 2).isLt
  obtain ⟨t, ht⟩ := point_of_block_row ⟨(i 0).val / 64, by omega⟩
  have q0 : win0_2.index t (0 : Fin 3) = (i 0).val / 64 := congrFun ht 0
  have q1 : win0_2.index t (1 : Fin 3) = 0 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 64 ≤ (i 0).val ∧ (i 0).val < win0_2.index t (0 : Fin 3) * 64 + 64; omega
  | ⟨1, _⟩ => show win0_2.index t (1 : Fin 3) * 128 ≤ (i 1).val ∧ (i 1).val < win0_2.index t (1 : Fin 3) * 128 + 128; omega
  | ⟨2, _⟩ => show win0_2.index t (2 : Fin 3) * 256 ≤ (i 2).val ∧ (i 2).val < win0_2.index t (2 : Fin 3) * 256 + 256; omega

/-- The output array after the region: `rowScaled` of the two arrays the region reads. -/
theorem region_result (c : Dev nD) :
    (dats m 0 c).arrAt 2 cfg0.N = rowScaled (V m c main_v0) (V m c main_v7) :=
  (dats m 0 c).arrAt_eq_of_cover 2 _ (fun t _ => written_block m c t) tiled

end Cert.KernelIdeal.RowBlocks

end
-- ==== Proof.HostSide.lean ====
/-
  The host operations around the region, and the kernel program's result as a function of its two arguments.

  Before the region the host flattens the input [32, 64, 128, 256] to [2048, 128, 256] (row r = 64·b + t) and builds the
  factor array [2048, 128]: an iota along the column axis is compared (signed) with the flattened lengths repeated along
  that axis, and the bit selects between the scale constant and zero. After the region the host restores the shape
  [32, 64, 128, 256]. A reshape keeps the row-major position, so entry (b, t, n, f) of the result is entry
  (64·b + t, n, f) of the region's output: the input entry (b, t, n, f) times the factor of (64·b + t, n), which is the
  factor of row n under the length (b, t).
-/
import proofs.«104111_j18098992185823_1_alg».proof.Proof.RowBlocks
import proofs.«104111_j18098992185823_1_alg».proof.Proof.MaskScale
import Idealize.ShloMosaic.Lib.StableHlo.Run
import Idealize.ShloMosaic.PureOps.Ideal.Laws

noncomputable section

namespace Cert.KernelIdeal.HostSide

open Cert.KernelIdeal Cert.KernelIdeal.Gen Cert.KernelIdeal.RowBlocks Idealize.ShloMosaic Idealize.ShloMosaic.TcCoe Idealize.SL.Sem
open Idealize.ShloMosaic.ValueIdx Idealize.ShloMosaic.StableHlo
open Cert.MaskScale

variable {F : FTy → Type} [FloatOps F]

/-! ## The factor array -/

/-- The factor array the host builds from the lengths. -/
def factorArr (len : (⟨S32x64, .i32⟩ : BufTy).Contents (Elt F)) : (⟨S2048x128, .f32⟩ : BufTy).Contents (Elt F) :=
  select (cmpi .slt (iotaInDim S2048x128 32 1)
      (broadcastInDim S2048x128 ![0, 1] bcast_S2048x1_S2048x128_0_1
        (broadcastInDim S2048x1 ![0] bcast_S2048_S2048x1_0 (shapeCast S2048 len shapeCasts_S32x64_S2048))))
    (broadcastInDim S2048x128 ![] bcast_S_S2048x128 (constant (F := F) S_ .f32 0x3F8CCCCD#32))
    (broadcastInDim S2048x128 ![] bcast_S_S2048x128 (constant (F := F) S_ .f32 0x00000000#32))

/-- At the extended reals, entry (r, n) of the factor array with r = 64·b + t is the factor of row n under length (b, t). -/
theorem factorArr_apply (len : (⟨S32x64, .i32⟩ : BufTy).Contents (Elt Ideal)) (r : Fin 2048) (n : Fin 128) (b : Fin 32) (t : Fin 64)
    (hr : r.val = b.val * 64 + t.val) :
    factorArr (F := Ideal) len (ix2 r n) = factor n.val (len (ix2 b t)) := by
  unfold factorArr factor keepBit scale
  show Scalar.select (IntOp.cmpi .slt (BitVec.ofNat 32 n.val)
        (broadcastInDim S2048x128 ![0, 1] bcast_S2048x1_S2048x128_0_1
          (broadcastInDim S2048x1 ![0] bcast_S2048_S2048x1_0 (shapeCast S2048 len shapeCasts_S32x64_S2048)) (ix2 r n)))
      (Ideal.ofBits .f32 0x3F8CCCCD#32) (Ideal.ofBits .f32 0x00000000#32) = _
  rw [Ideal.ofBits_zero_f32,
    broadcastInDim_apply _ bcast_S2048x1_S2048x128_0_1 _ (ix2 r n) (ix2 r (0 : Fin 1)) (fun a => match a with
      | ⟨0, _⟩ => by show r.val = if (2048 : Nat) = 1 then 0 else r.val; rw [if_neg (by decide)]
      | ⟨1, _⟩ => by show 0 = if (1 : Nat) = 1 then 0 else n.val; rw [if_pos rfl]),
    broadcastInDim_apply _ bcast_S2048_S2048x1_0 _ (ix2 r (0 : Fin 1)) (ix1 r) (fun a => match a with
      | ⟨0, _⟩ => by show r.val = if (2048 : Nat) = 1 then 0 else r.val; rw [if_neg (by decide)]),
    shapeCast_apply len shapeCasts_S32x64_S2048 (ix1 r) (ix2 b t) (by
      rw [Shape.rowMajor_val_two, Shape.rowMajor_val_one]
      show b.val * 64 + t.val = r.val
      omega)]

/-! ## The result at an index -/

/-- The region's output of the flattened input and the factor array, restored to rank 4, is the row-scaled input. -/
theorem restored_eq (x : (⟨S32x64x128x256, .f32⟩ : BufTy).Contents (Elt Ideal)) (len : (⟨S32x64, .i32⟩ : BufTy).Contents (Elt Ideal)) :
    shapeCast S32x64x128x256
        (rowScaled (F := Ideal) (shapeCast S2048x128x256 x shapeCasts_S32x64x128x256_S2048x128x256) (factorArr len))
        shapeCasts_S2048x128x256_S32x64x128x256
      = scaled x len := by
  funext i
  have hi0 : (i 0).val < 32 := (i 0).isLt
  have hi1 : (i 1).val < 64 := (i 1).isLt
  have hpos : (S2048x128x256.rowMajor (ix3 (⟨(i 0).val * 64 + (i 1).val, by omega⟩ : Fin 2048) (i 2) (i 3))).val
      = (S32x64x128x256.rowMajor i).val := by
    rw [Shape.rowMajor_val_three, Shape.rowMajor_val_four]
    rfl
  rw [shapeCast_apply _ shapeCasts_S2048x128x256_S32x64x128x256 i
    (ix3 (⟨(i 0).val * 64 + (i 1).val, by omega⟩ : Fin 2048) (i 2) (i 3)) hpos]
  show FloatOps.mulf (shapeCast S2048x128x256 x shapeCasts_S32x64x128x256_S2048x128x256
        (ix3 (⟨(i 0).val * 64 + (i 1).val, by omega⟩ : Fin 2048) (i 2) (i 3)))
      (factorArr len (ix2 (⟨(i 0).val * 64 + (i 1).val, by omega⟩ : Fin 2048) (i 2))) = _
  rw [shapeCast_apply x shapeCasts_S32x64x128x256_S2048x128x256 _ i hpos.symm,
    factorArr_apply len _ (i 2) (i 0) (i 1) rfl]
  rfl

/-! ## The host operations read -/

section Host

variable (m : (ℓ : Loc nD τ sig) → Buf (Elt F) ℓ)

/-- The data array the region reads is the input flattened. -/
theorem entry_data (c : Dev nD) :
    (V m c main_v0 : S2048x128x256.Idx → Elt F .f32)
      = shapeCast S2048x128x256 (m ((c : Thread nD τ).loc main_arg0)) shapeCasts_S32x64x128x256_S2048x128x256 := by
  dsimp only [V, V0]
  simp only [hostOps0, hostOps0_1, hostOps0_2, List.flatten_cons, List.flatten_nil, List.append_nil, List.cons_append,
    List.nil_append]
  after_results
  rfl

/-- The factor array the region reads is `factorArr` of the lengths. -/
theorem entry_factor (c : Dev nD) :
    (V m c main_v7 : S2048x128.Idx → Elt F .f32) = factorArr (m ((c : Thread nD τ).loc main_arg1)) := by
  dsimp only [V, V0]
  simp only [hostOps0, hostOps0_1, hostOps0_2, List.flatten_cons, List.flatten_nil, List.append_nil, List.cons_append,
    List.nil_append]
  after_results
  rfl

/-- The result buffer after the host's last operation: the region's output array restored to rank 4. -/
theorem tail_result (c : Dev nD) :
    (Pipeline.afterTail₀ cfgs (dats m) 0 (V0 m) [hostOps1] c main_v9 : S32x64x128x256.Idx → Elt F .f32)
      = shapeCast S32x64x128x256 ((dats m 0 c).arrAt 2 cfg0.N) shapeCasts_S2048x128x256_S32x64x128x256 := by
  unfold Pipeline.afterTail₀
  show StableHlo.after hostOps1 _ (Proc.devRef .tc main_v9) = _
  after_results
  rw [show Pipeline.withArrays (cfgs 0).spec c (V0 m c) (fun w => (dats m 0 c).arrAt w (cfgs 0).N) (Proc.devRef .tc main_v8)
      = (dats m 0 c).arrAt 2 cfg0.N from
    Pipeline.withArrays_arr spec0 launch0.win.arr_inj c (V0 m c) (fun w => (dats m 0 c).arrAt w cfg0.N) 2]
  rfl

end Host

/-! ## The kernel program's run, read -/

section Run

variable (m : (ℓ : Loc nD τ sig) → Buf (Elt Ideal) ℓ) (ρ : Dev nD → PrngReg)

/-- At the extended reals the result buffer ends at the row-scaled input. -/
theorem result_eq (c : Dev nD) :
    Pipeline.afterTail₀ cfgs (dats m) 0 (V0 m) [hostOps1] c main_v9
      = scaled (m ((c : Thread nD τ).loc main_arg0)) (m ((c : Thread nD τ).loc main_arg1)) := by
  refine (tail_result m c).trans ?_
  rw [region_result m c, entry_data m c, entry_factor m c]
  exact restored_eq _ _

/-- Every weakly fair execution of the kernel program, at the extended reals, terminates with the result buffer at the
    row-scaled input and the two arguments unchanged. -/
theorem run : θ_run defs (onTc (τ := τ) (main (F := Ideal))) ⟨m, fun _ => 0, ρ⟩ fun r => ∀ c : Dev nD,
      r.2.mem ((c : Thread nD τ).loc main_v9)
        = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Run

end Cert.KernelIdeal.HostSide

end
-- ==== Proof.lean ====
/-
  A ragged row mask times a scalar scale: kernel against reference, over the extended reals.

  Input x : [32, 64, 128, 256] and 32-bit lengths len : [32, 64]. Both programs compute

      out (b, t, n, f) = x (b, t, n, f) · (if n <ₛ len (b, t) then c else 0),      c = the binary32 pattern 0x3F8CCCCD,

  (Proof/MaskScale.lean, `scaled`).

  The reference converts the comparison's bit to 1 or 0, multiplies it by c, and multiplies the input by the broadcast
  product; 1 · c = c and 0 · c = 0 on every extended real make that factor the select between c and 0
  (Proof/RefValue.lean over the reference's run read at an index).

  The kernel program flattens (b, t) to one row axis r = 64·b + t, builds the factor array [2048, 128] on the host by the
  same comparison and a select between c and 0, and runs a one-axis grid of 32 points; point t multiplies rows
  64·t … 64·t + 63 of the flattened input by their factors, repeated along the last axis. The 32 blocks tile the output
  (Proof/RowBlocks.lean), a reshape keeps the row-major position, and the restored result is `scaled`
  (Proof/HostSide.lean). No law used needs finiteness, so the precondition is never opened.

  The idealization rewrote nothing, so `preserves` is `True`.
-/
import proofs.«104111_j18098992185823_1_alg».proof.Defs
import proofs.«104111_j18098992185823_1_alg».proof.Proof.Gen.Kernel
import proofs.«104111_j18098992185823_1_alg».proof.Proof.Gen.Kernel.Skeleton
import proofs.«104111_j18098992185823_1_alg».proof.Proof.Gen.Kernel.Launch
import proofs.«104111_j18098992185823_1_alg».proof.Proof.Gen.Kernel.Points
import proofs.«104111_j18098992185823_1_alg».proof.Proof.Gen.Kernel.Frame
import proofs.«104111_j18098992185823_1_alg».proof.Proof.Gen.KernelIdeal
import proofs.«104111_j18098992185823_1_alg».proof.Proof.Gen.KernelIdeal.Skeleton
import proofs.«104111_j18098992185823_1_alg».proof.Proof.Gen.KernelIdeal.Launch
import proofs.«104111_j18098992185823_1_alg».proof.Proof.Gen.KernelIdeal.Points
import proofs.«104111_j18098992185823_1_alg».proof.Proof.Gen.KernelIdeal.Frame
import proofs.«104111_j18098992185823_1_alg».proof.Proof.Gen.ReferenceIdeal
import proofs.«104111_j18098992185823_1_alg».proof.Proof.Gen.Pre_finite_inputs
import proofs.«104111_j18098992185823_1_alg».proof.Proof.Gen.ReferenceIdeal.Run
import proofs.«104111_j18098992185823_1_alg».proof.Proof.Gen.ReferenceIdeal.Read
import proofs.«104111_j18098992185823_1_alg».proof.Proof.RefValue
import proofs.«104111_j18098992185823_1_alg».proof.Proof.HostSide
import Idealize.ShloMosaic.Adequacy
import Idealize.ShloMosaic.Init

noncomputable section

namespace Cert.Proof

open Idealize.ShloMosaic Idealize.SL.Sem Cert.Kernel

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments both programs end with the result at `scaled` of those arguments. -/
theorem algebraic : Cert.algebraic_KernelIdeal_ReferenceIdeal := by
  intro m ρ m' ρ' _ hagree
  refine ⟨_, Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.stage_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
